-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x16x512 : Shape := ⟨3, ![8192, 16, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x16x512 : S_.BroadcastsInDim S8192x16x512 (![] : Fin 0 → Fin S8192x16x512.rank)
  reducesTo_S8192x16x512_S_d0_1_2 : S8192x16x512.ReducesTo [0, 1, 2] S_

variable [Facts]

def fn {F : FTy → Type} [FloatOps F] (main_arg0 : FVec F S8192x512 .f32) (main_arg1 : FVec F S8192x512 .f32) (main_arg2 : FVec F S8192x16x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x16x512 .f32 := Host.absf main_arg2
  let main_cst_2 : FVec F S_ .f32 := constant S_ .f32 0x7F800000#32
  let main_v10 : FVec F S8192x16x512 .f32 := broadcastInDim S8192x16x512 ![] bcast_S_S8192x16x512 main_cst_2
  let main_v11 : IVec S8192x16x512 1 := cmpf .olt main_v9 main_v10
  let main_c_3 : IVec S_ 1 := constantI S_ 1 1#1
  let main_v12 : IVec S_ 1 := (fun x v => Host.reduce IntOp.andi x v reducesTo_S8192x16x512_S_d0_1_2 h_S_) main_v11 main_c_3
  let main_v13 : IVec S_ 1 := andi main_v8 main_v12
  main_v13
-- ==== Kernel.lean ====
abbrev S8192x512 : Shape := ⟨2, ![8192, 512]⟩
abbrev S8192x16x512 : Shape := ⟨3, ![8192, 16, 512]⟩
abbrev S1x1 : Shape := ⟨2, ![1, 1]⟩
abbrev S256x512 : Shape := ⟨2, ![256, 512]⟩
abbrev S256x16x512 : Shape := ⟨3, ![256, 16, 512]⟩
abbrev S256 : Shape := ⟨1, ![256]⟩
abbrev S256x1 : Shape := ⟨2, ![256, 1]⟩
abbrev S256x1x512 : Shape := ⟨3, ![256, 1, 512]⟩
abbrev S1 : Shape := ⟨1, ![1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x16x512, .f32⟩
  | .hbm, ⟨3, _⟩ => ⟨S1x1, .f32⟩
  | .hbm, ⟨4, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x16x512, .f32⟩
  | .local _ .vmem, ⟨5, _⟩ => ⟨S256x16x512, .f32⟩
  | .local _ .vmem, ⟨6, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  inb_S256x16x512_S256x1x512_0_0_0 : ∀ a, (![0, 0, 0] : Fin 3 → Nat) a + S256x1x512.size a ≤ S256x16x512.size a
  h_S256x1x512 : 0 < S256x1x512.numel
  shapeCasts_S256x1x512_S256x512 : S256x1x512.ShapeCasts S256x512
  inb_S256x16x512_S256x1x512_0_1_0 : ∀ a, (![0, 1, 0] : Fin 3 → Nat) a + S256x1x512.size a ≤ S256x16x512.size a
  inb_S256x16x512_S256x1x512_0_2_0 : ∀ a, (![0, 2, 0] : Fin 3 → Nat) a + S256x1x512.size a ≤ S256x16x512.size a
  inb_S256x16x512_S256x1x512_0_3_0 : ∀ a, (![0, 3, 0] : Fin 3 → Nat) a + S256x1x512.size a ≤ S256x16x512.size a
  inb_S256x16x512_S256x1x512_0_4_0 : ∀ a, (![0, 4, 0] : Fin 3 → Nat) a + S256x1x512.size a ≤ S256x16x512.size a
  inb_S256x16x512_S256x1x512_0_5_0 : ∀ a, (![0, 5, 0] : Fin 3 → Nat) a + S256x1x512.size a ≤ S256x16x512.size a
  inb_S256x16x512_S256x1x512_0_6_0 : ∀ a, (![0, 6, 0] : Fin 3 → Nat) a + S256x1x512.size a ≤ S256x16x512.size a
  inb_S256x16x512_S256x1x512_0_7_0 : ∀ a, (![0, 7, 0] : Fin 3 → Nat) a + S256x1x512.size a ≤ S256x16x512.size a
  inb_S256x16x512_S256x1x512_0_8_0 : ∀ a, (![0, 8, 0] : Fin 3 → Nat) a + S256x1x512.size a ≤ S256x16x512.size a
  inb_S256x16x512_S256x1x512_0_9_0 : ∀ a, (![0, 9, 0] : Fin 3 → Nat) a + S256x1x512.size a ≤ S256x16x512.size a
  inb_S256x16x512_S256x1x512_0_10_0 : ∀ a, (![0, 10, 0] : Fin 3 → Nat) a + S256x1x512.size a ≤ S256x16x512.size a
  inb_S256x16x512_S256x1x512_0_11_0 : ∀ a, (![0, 11, 0] : Fin 3 → Nat) a + S256x1x512.size a ≤ S256x16x512.size a
  inb_S256x16x512_S256x1x512_0_12_0 : ∀ a, (![0, 12, 0] : Fin 3 → Nat) a + S256x1x512.size a ≤ S256x16x512.size a
  inb_S256x16x512_S256x1x512_0_13_0 : ∀ a, (![0, 13, 0] : Fin 3 → Nat) a + S256x1x512.size a ≤ S256x16x512.size a
  inb_S256x16x512_S256x1x512_0_14_0 : ∀ a, (![0, 14, 0] : Fin 3 → Nat) a + S256x1x512.size a ≤ S256x16x512.size a
  inb_S256x16x512_S256x1x512_0_15_0 : ∀ a, (![0, 15, 0] : Fin 3 → Nat) a + S256x1x512.size a ≤ S256x16x512.size a
  reduces_S256x1_S1 : S256x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16x512.size a ≤ S8192x16x512.size a
  hwx0_2 : ∀ i : grid0.Coords, EltTy.bits .f32 = 32 ∨ (Rect.block (s := S8192x16x512) S256x16x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x16x512 : Shape := ⟨3, ![8192, 16, 512]⟩
abbrev S_ : Shape := ⟨0, ![]⟩
abbrev S8192 : Shape := ⟨1, ![8192]⟩
abbrev S8192x1x512 : Shape := ⟨3, ![8192, 1, 512]⟩
abbrev S8192x16 : Shape := ⟨2, ![8192, 16]⟩

abbrev nBuf : Space → Nat
  | .hbm => 35
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x16x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192x1x512, .f32⟩
  | .hbm, ⟨12, _⟩ => ⟨S8192x16x512, .f32⟩
  | .hbm, ⟨13, _⟩ => ⟨S8192x16x512, .f32⟩
  | .hbm, ⟨14, _⟩ => ⟨S8192x16x512, .f32⟩
  | .hbm, ⟨15, _⟩ => ⟨S_, .f32⟩
  | .hbm, ⟨16, _⟩ => ⟨S8192x16, .f32⟩
  | .hbm, ⟨17, _⟩ => ⟨S_, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S_S8192 : S_.BroadcastsInDim S8192 (![] : Fin 0 → Fin S8192.rank)
  bcast_S8192x512_S8192x1x512_0_2 : S8192x512.BroadcastsInDim S8192x1x512 (![0, 2] : Fin 2 → Fin S8192x1x512.rank)
  bcast_S8192x1x512_S8192x16x512_0_1_2 : S8192x1x512.BroadcastsInDim S8192x16x512 (![0, 1, 2] : Fin 3 → Fin S8192x16x512.rank)
  reducesTo_S8192x16x512_S8192x16_d2 : S8192x16x512.ReducesTo [2] S8192x16
  bcast_S_S8192x16 : S_.BroadcastsInDim S8192x16 (![] : Fin 0 → Fin S8192x16.rank)
  reducesTo_S8192x16_S8192_d1 : S8192x16.ReducesTo [1] S8192
  reducesTo_S8192_S_d0 : S8192.ReducesTo [0] S_

variable [Facts₀]

class Facts : Prop extends Facts₀ where

variable [Facts]
-- ==== Proof.Tile.lean ====
/-
  One grid point of the kernel, as pure vector terms: what the body leaves in the accumulator from the anchor
  block `a`, the positive block `p` (each [256, 512]), the negatives block `n` ([256, 16, 512]) and the accumulator's
  previous contents `prev` ([1, 1]).

  The body computes, row by row of the tile, the distance column `√(∑_d diff² + ε)` of a difference block
  (`distCol`), once for the positive and once for each of the sixteen negative slots (slot `k` of `n` is the
  [256, 1, 512] sub-block at offset `(0, k, 0)`, reshaped to [256, 512]); it adds the sixteen negative columns one
  after the other onto a zero column (`negChain`), forms `max (16 · d_pos - d_neg + 1) 0` (`hingeCol`), sums that
  column over the tile's rows (`tileSum`) and adds the result to the previous contents (`bodyOut`).
  `bodyOut_eq_payloads` says the printed body's nested payloads are this term (they unfold to it).
-/
import proofs.«132260_j16862041604543_1_alg».proof.Proof.Gen.KernelIdeal.Skeleton
import Idealize.ShloMosaic.Lib.Pipeline.Value

noncomputable section

open Idealize.ShloMosaic Idealize.ShloMosaic.TcCoe Idealize.SL.Sem

namespace Cert.KernelIdeal.Tile

open Cert.KernelIdeal Cert.KernelIdeal.Gen

variable {F : FTy → Type} [FloatOps F]

/-- The distance column of a difference block: per row, the root of the sum of the squares plus ε. -/
def distCol (d : FVec F S256x512 .f32) : FVec F S256x1 .f32 :=
  sqrt (addf (shapeCast S256x1 (multiReduction .add [1] S256 (mulf d d) 0x00000000#32 reduces_S256x512_S256 (.inl rfl) rfl)
    shapeCasts_S256_S256x1) (broadcast S256x1 (Scalar.ofBits .f32 0x2B8CBCCC#32)))

/-- A negative slot, loaded as [256, 1, 512], as a [256, 512] block. -/
def slotBlk (l : Vec F S256x1x512 .f32) : FVec F S256x512 .f32 := shapeCast S256x512 l shapeCasts_S256x1x512_S256x512

/-- Slot `k`'s rectangle lies inside the negatives block. -/
theorem slot_inb (k : Fin 16) : ∀ a, (![0, k.val, 0] : Fin 3 → Nat) a + S256x1x512.size a ≤ S256x16x512.size a := by
  intro a
  have := k.isLt
  match a with
  | ⟨0, _⟩ => show 0 + 256 ≤ 256; omega
  | ⟨1, _⟩ => show k.val + 1 ≤ 16; omega
  | ⟨2, _⟩ => show 0 + 512 ≤ 512; omega

/-- Slot `k` of the negatives block: what the body's load at offset `(0, k, 0)` reads. -/
def slot (n : Vec F S256x16x512 .f32) (k : Fin 16) : Vec F S256x1x512 .f32 :=
  View.ld n (Rect.unit ![0, k.val, 0] ![256, 1, 512] (slot_inb k))

/-- The negatives' distance columns added one after the other, slots `0 … k-1`, onto a zero column. -/
def negChain (a : Vec F S256x512 .f32) (n : Vec F S256x16x512 .f32) : (k : ℕ) → k ≤ 16 → FVec F S256x1 .f32
  | 0, _ => broadcast S256x1 (Scalar.ofBits .f32 0x00000000#32)
  | k + 1, h => addf (negChain a n k (Nat.le_of_succ_le h)) (distCol (subf a (slotBlk (slot n ⟨k, h⟩))))

/-- The hinge column of the tile: `max (16 · d_pos - d_neg + 1) 0`, row by row. -/
def hingeCol (a p : Vec F S256x512 .f32) (n : Vec F S256x16x512 .f32) : FVec F S256x1 .f32 :=
  maximumf (addf (subf (mulf (broadcast S256x1 (Scalar.ofBits .f32 0x41800000#32)) (distCol (subf a p)))
      (negChain a n 16 le_rfl)) (broadcast S256x1 (Scalar.ofBits .f32 0x3F800000#32)))
    (broadcast S256x1 (Scalar.ofBits .f32 0x00000000#32))

/-- The tile's hinge column summed over its rows, as a [1, 1] vector. -/
def tileSum (a p : Vec F S256x512 .f32) (n : Vec F S256x16x512 .f32) : FVec F S1x1 .f32 :=
  shapeCast S1x1 (multiReduction .add [0] S1 (hingeCol a p n) 0x00000000#32 reduces_S256x1_S1 (.inl rfl) rfl) shapeCasts_S1_S1x1

/-- What the body leaves in the accumulator: its previous contents plus the tile's sum. -/
def bodyOut (a p : Vec F S256x512 .f32) (n : Vec F S256x16x512 .f32) (prev : Vec F S1x1 .f32) : Vec F S1x1 .f32 :=
  addf (shapeCast S1x1 prev shapeCasts_S1x1_S1x1) (tileSum a p n)

/-- The printed body's payloads, nested as the body chains them, are `bodyOut`. -/
theorem bodyOut_eq_payloads (a p : Vec F S256x512 .f32) (n : Vec F S256x16x512 .f32) (prev : Vec F S1x1 .f32) :
    k0_pay1 a (k0_pay3 a p)
      (k0_pay10 a
        (k0_pay8 a
          (k0_pay6 a
            (k0_pay4 a (slot n 0) (slot n 1))
            (k0_pay5 a (slot n 2))
            (slot n 3) (slot n 4) (slot n 5))
          (k0_pay7 a (slot n 6))
          (slot n 7) (slot n 8) (slot n 9))
        (k0_pay9 a (slot n 10))
        (slot n 11) (slot n 12) (slot n 13))
      (k0_pay11 a (slot n 14))
      (slot n 15) prev = bodyOut a p n prev := rfl

end Cert.KernelIdeal.Tile

end
-- ==== Proof.Pieces.lean ====
/-
  What each of the body's two control cases leaves in the accumulator, as the pure term `Tile.bodyOut`.

  At the first grid point the body first stores a zero, then reads it back and stores `0 + tile sum`; at every later
  point it reads the accumulator's running contents and stores `contents + tile sum`. In both cases the last store
  covers the accumulator's one element, so what is left is that store's payload: `bodyOut` of the three input
  blocks and of the zero block (first point) or the running contents (later points).
-/
import proofs.«132260_j16862041604543_1_alg».proof.Proof.Gen.KernelIdeal.Frame
import proofs.«132260_j16862041604543_1_alg».proof.Proof.Tile
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Accum

open Cert.KernelIdeal Cert.KernelIdeal.Gen Cert.KernelIdeal.Tile

variable {F : FTy → Type} [FloatOps F]

theorem hz : (![0, 0] : Fin 2 → Nat) = fun _ => 0 := funext fun a => by fin_cases a <;> rfl

/-- The zero block the first point stores before it accumulates. -/
abbrev zero11 : FVec F S1x1 .f32 := broadcast S1x1 (Scalar.ofBits .f32 0x00000000#32)

/-- A later point (any but the first): the accumulator holding `xo`, the body leaves `xo + tile sum`. -/
theorem out_later (c : Dev nD) (i : grid0.Coords) (a1 : Memref sig .tc .vmem S256x512 .f32) (h1 : a1.IsWhole)
    (a2 : Memref sig .tc .vmem S256x512 .f32) (h2 : a2.IsWhole) (a3 : Memref sig .tc .vmem S256x16x512 .f32) (h3 : a3.IsWhole)
    (a4 : Memref sig .tc .vmem S1x1 .f32) (h4 : a4.IsWhole) (hc : ¬cond0_0 i)
    (x0 x1 : Vec F S256x512 .f32) (x2 : Vec F S256x16x512 .f32) (xo : Vec F S1x1 .f32) :
    out0_B_3 c i a1 h1 a2 h2 a3 h3 a4 h4 hc x0 x1 x2 xo = bodyOut x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S256x512) hz, View.ld_unit_zero (S := S1x1) hz]
  exact bodyOut_eq_payloads x0 x1 x2 xo

/-- The first point: the body zeroes the accumulator, reads the zero back, and leaves `0 + tile sum`. -/
theorem out_first (c : Dev nD) (i : grid0.Coords) (a1 : Memref sig .tc .vmem S256x512 .f32) (h1 : a1.IsWhole)
    (a2 : Memref sig .tc .vmem S256x512 .f32) (h2 : a2.IsWhole) (a3 : Memref sig .tc .vmem S256x16x512 .f32) (h3 : a3.IsWhole)
    (a4 : Memref sig .tc .vmem S1x1 .f32) (h4 : a4.IsWhole) (hc : cond0_0 i)
    (x0 x1 : Vec F S256x512 .f32) (x2 : Vec F S256x16x512 .f32) :
    out0_A_3 c i a1 h1 a2 h2 a3 h3 a4 h4 hc x0 x1 x2 = bodyOut x0 x1 x2 zero11 := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S256x512) hz]
  exact bodyOut_eq_payloads x0 x1 x2 k0_pay2

end Cert.KernelIdeal.Accum

end
-- ==== Proof.Hinge.lean ====
/-
  The triplet hinge loss over the extended reals, as ONE function of the three argument arrays.

  For an anchor row `a`, a positive row `p` (each 512 extended reals) and sixteen negative rows `n k`, the distance of
  two rows is `dist u v = √(∑_d (u d - v d)² + ε)` (ε the f32 word nearest 1e-12, the same word on both sides, never
  evaluated) and the row's hinge is `max (16 · dist a p - ∑_k dist a (n k) + 1) 0`. The loss is the sum of the hinges
  of all 8192 rows. The only algebra the certificate needs is that this sum may be taken tile by tile: 32 tiles of
  256 consecutive rows (`loss_eq_tiles`), which holds in any commutative additive monoid, so no finiteness of the
  inputs is used.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Triplet

open Idealize.ShloMosaic Idealize.ShloMosaic.ValueIdx

/-- The additive constant under the square root: the f32 word nearest `1e-12`. -/
abbrev eps : EReal := Ideal.ofBits .f32 0x2B8CBCCC#32
/-- The number of negatives as a float: `16.0`. -/
abbrev sixteen : EReal := Ideal.ofBits .f32 0x41800000#32
/-- The margin: `1.0`. -/
abbrev margin : EReal := Ideal.ofBits .f32 0x3F800000#32

/-- The distance of two rows: the root of the sum of squared differences, shifted by `eps`. -/
def dist (u v : Fin 512 → EReal) : EReal :=
  Ideal.sqrt ((∑ d : Fin 512, (u d - v d) * (u d - v d)) + eps)

/-- One row's hinge: sixteen times the distance to the positive, less the distances to the sixteen negatives,
    plus the margin, cut off below at zero. -/
def hinge (a p : Fin 512 → EReal) (n : Fin 16 → Fin 512 → EReal) : EReal :=
  max (sixteen * dist a p - (∑ k : Fin 16, dist a (n k)) + margin) 0

/-- Row `b` of a [B, 512] array. -/
abbrev row2 {B : Nat} (X : (⟨2, ![B, 512]⟩ : Shape).Idx → EReal) (b : Fin B) : Fin 512 → EReal := fun d => X (ix2 b d)
/-- Row `(b, k)` of a [B, 16, 512] array. -/
abbrev row3 {B : Nat} (X : (⟨3, ![B, 16, 512]⟩ : Shape).Idx → EReal) (b : Fin B) : Fin 16 → Fin 512 → EReal :=
  fun k d => X (ix3 b k d)

/-- The sum of the hinges of the `B` rows of an anchor, a positive and a negatives array. -/
def hingeSum {B : Nat} (A P : (⟨2, ![B, 512]⟩ : Shape).Idx → EReal) (N : (⟨3, ![B, 16, 512]⟩ : Shape).Idx → EReal) : EReal :=
  ∑ b : Fin B, hinge (row2 A b) (row2 P b) (row3 N b)

/-- The loss: the hinge sum of the whole [8192, ·] arrays. -/
abbrev loss (A P : (⟨2, ![8192, 512]⟩ : Shape).Idx → EReal) (N : (⟨3, ![8192, 16, 512]⟩ : Shape).Idx → EReal) : EReal :=
  hingeSum A P N

/-- Row `r` of tile `t`: row `256 t + r` of the whole array. -/
abbrev tileRow (t : Fin 32) (r : Fin 256) : Fin 8192 := ⟨256 * t.val + r.val, by have := t.isLt; have := r.isLt; omega⟩

/-- A sum over the 8192 rows is the sum over the 32 tiles of the sums over each tile's 256 rows. -/
theorem sum_rows_eq_tiles {M : Type*} [AddCommMonoid M] (f : Fin 8192 → M) :
    ∑ b : Fin 8192, f b = ∑ t : Fin 32, ∑ r : Fin 256, f (tileRow t r) := by
  rw [← Fintype.sum_prod_type' (f := fun t r => f (tileRow t r))]
  refine (Equiv.sum_comp (finProdFinEquiv (m := 32) (n := 256)) f).symm.trans ?_
  refine Finset.sum_congr rfl fun x _ => congrArg f (Fin.ext ?_)
  show x.2.val + 256 * x.1.val = 256 * x.1.val + x.2.val
  omega

/-- The loss, tile by tile. -/
theorem loss_eq_tiles (A P : (⟨2, ![8192, 512]⟩ : Shape).Idx → EReal) (N : (⟨3, ![8192, 16, 512]⟩ : Shape).Idx → EReal) :
    loss A P N = ∑ t : Fin 32, ∑ r : Fin 256,
      hinge (row2 A (tileRow t r)) (row2 P (tileRow t r)) (row3 N (tileRow t r)) :=
  sum_rows_eq_tiles _

end Cert.Triplet

end
-- ==== Proof.TileValue.lean ====
/-
  The accumulator step read at the extended reals: at its one index, what the body leaves is the previous contents
  plus the sum over the tile's 256 rows of each row's hinge.
-/
import proofs.«132260_j16862041604543_1_alg».proof.Proof.Tile
import proofs.«132260_j16862041604543_1_alg».proof.Proof.Hinge
import Idealize.ShloMosaic.PureOps.Ideal.Laws
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx

namespace Cert.KernelIdeal.Tile

open Cert.KernelIdeal Cert.KernelIdeal.Gen Cert.Triplet

/-- Slot `k` of the negatives block, as a [256, 512] block, reads the negatives at `(r, k, d)`. -/
theorem slotBlk_slot_apply (n : Vec Ideal S256x16x512 .f32) (k : Fin 16) (r : Fin 256) (d : Fin 512) :
    slotBlk (slot n k) (ix2 r d) = n (ix3 r k d) := by
  unfold slotBlk
  refine (shapeCast_apply (slot n k) shapeCasts_S256x1x512_S256x512 (ix2 r d) (ix3 r (0 : Fin 1) d) ?_).trans ?_
  · rw [Shape.rowMajor_val_three, Shape.rowMajor_val_two]
    show (r.val * 1 + 0) * 512 + d.val = r.val * 512 + d.val
    omega
  · show n _ = n _
    refine congrArg n (funext fun a => Fin.ext ?_)
    match a with
    | ⟨0, _⟩ => show 0 + 1 * r.val = r.val; omega
    | ⟨1, _⟩ => show k.val + 1 * 0 = k.val; omega
    | ⟨2, _⟩ => show 0 + 1 * d.val = d.val; omega

/-- Reducing a [256, 512] block over its columns: the inserted index at row `r`, column `d` is `(r, d)`. -/
theorem lift_row (h : S256x512.Reduces [1] S256) (r : Fin 256) (d : Fin 512) : h.lift (ix1 r) d = ix2 r d := by
  funext a
  match a with
  | ⟨0, _⟩ => exact Fin.ext rfl
  | ⟨1, _⟩ => exact Fin.ext rfl

/-- The distance column at row `r`: the root of the row's sum of squares plus ε. -/
theorem distCol_apply (D : FVec Ideal S256x512 .f32) (r : Fin 256) (c : Fin 1) :
    distCol D (ix2 r c) = Ideal.sqrt ((∑ d : Fin 512, D (ix2 r d) * D (ix2 r d)) + eps) := by
  unfold distCol
  show Ideal.sqrt (shapeCast S256x1 (multiReduction .add [1] S256 (mulf D D) 0x00000000#32 reduces_S256x512_S256 (.inl rfl) rfl)
      shapeCasts_S256_S256x1 (ix2 r c) + eps) = _
  refine congrArg (fun t => Ideal.sqrt (t + eps)) ?_
  refine (shapeCast_apply _ shapeCasts_S256_S256x1 (ix2 r c) (ix1 r) ?_).trans ?_
  · rw [Shape.rowMajor_val_two, Shape.rowMajor_val_one]
    show r.val = r.val * 1 + c.val
    omega
  · refine (Ideal.multiReduction_add_single (mulf D D) 0x00000000#32 reduces_S256x512_S256 (.inl rfl) rfl (ix1 r)).trans ?_
    refine Finset.sum_congr rfl fun d _ => ?_
    exact congrArg (fun i => D i * D i) (lift_row reduces_S256x512_S256 r d)

/-- The distance column of `a - x` at row `r` is the distance of row `r` of `a` from row `r` of `x`. -/
theorem distCol_subf_apply (a x : FVec Ideal S256x512 .f32) (r : Fin 256) (c : Fin 1) :
    distCol (subf a x) (ix2 r c) = dist (row2 a r) (row2 x r) :=
  distCol_apply (subf a x) r c

/-- The first `k` negative columns added up: at row `r`, the sum of the distances to the first `k` negatives. -/
theorem negChain_apply (a : Vec Ideal S256x512 .f32) (n : Vec Ideal S256x16x512 .f32) (r : Fin 256) (c : Fin 1) :
    ∀ (k : ℕ) (hk : k ≤ 16), negChain a n k hk (ix2 r c)
      = ∑ j : Fin k, dist (row2 a r) (row3 n r ⟨j.val, Nat.lt_of_lt_of_le j.isLt hk⟩)
  | 0, _ => by
    show Ideal.ofBits .f32 0x00000000#32 = _
    rw [Ideal.ofBits_zero_f32, Finset.univ_eq_empty, Finset.sum_empty]
  | k + 1, hk => by
    show negChain a n k (Nat.le_of_succ_le hk) (ix2 r c)
        + distCol (subf a (slotBlk (slot n ⟨k, hk⟩))) (ix2 r c) = _
    rw [negChain_apply a n r c k (Nat.le_of_succ_le hk), distCol_subf_apply, Fin.sum_univ_castSucc]
    refine congrArg (fun t => _ + dist (row2 a r) t) (funext fun d => ?_)
    exact slotBlk_slot_apply n ⟨k, hk⟩ r d

/-- The hinge column at row `r` is that row's hinge. -/
theorem hingeCol_apply (a p : Vec Ideal S256x512 .f32) (n : Vec Ideal S256x16x512 .f32) (r : Fin 256) (c : Fin 1) :
    hingeCol a p n (ix2 r c) = hinge (row2 a r) (row2 p r) (row3 n r) := by
  show max (sixteen * (distCol (F := Ideal) (subf a p) (ix2 r c) : EReal)
      - (negChain (F := Ideal) a n 16 le_rfl (ix2 r c) : EReal) + margin) (Ideal.ofBits .f32 0x00000000#32) = _
  rw [distCol_subf_apply, negChain_apply, Ideal.ofBits_zero_f32]
  rfl

/-- Reducing a [256, 1] column over its rows: the inserted index at row `r` is `(r, 0)`. -/
theorem lift_col (h : S256x1.Reduces [0] S1) (r : Fin 256) : h.lift (ix1 (0 : Fin 1)) r = ix2 r (0 : Fin 1) := by
  funext a
  match a with
  | ⟨0, _⟩ => exact Fin.ext rfl
  | ⟨1, _⟩ => exact Fin.ext rfl

/-- The tile's sum at its one index: the sum of the hinge column over the tile's rows. -/
theorem tileSum_apply (a p : Vec Ideal S256x512 .f32) (n : Vec Ideal S256x16x512 .f32) :
    tileSum a p n (ix2 0 0) = ∑ r : Fin 256, hingeCol a p n (ix2 r 0) := by
  unfold tileSum
  refine (shapeCast_apply _ shapeCasts_S1_S1x1 (ix2 0 0) (ix1 (0 : Fin 1)) ?_).trans ?_
  · rw [Shape.rowMajor_val_two, Shape.rowMajor_val_one]
    rfl
  · refine (Ideal.multiReduction_add_single (hingeCol a p n) 0x00000000#32 reduces_S256x1_S1 (.inl rfl) rfl
      (ix1 (0 : Fin 1))).trans ?_
    refine Finset.sum_congr rfl fun r _ => ?_
    exact congrArg (hingeCol a p n) (lift_col reduces_S256x1_S1 r)

/-- At the accumulator's one index the body leaves `prev + ∑_r hinge (row r of the tile)`. -/
theorem bodyOut_apply (a p : Vec Ideal S256x512 .f32) (n : Vec Ideal S256x16x512 .f32) (prev : Vec Ideal S1x1 .f32) :
    bodyOut a p n prev (ix2 0 0)
      = prev (ix2 0 0) + ∑ r : Fin 256, hinge (row2 a r) (row2 p r) (row3 n r) := by
  show shapeCast S1x1 prev shapeCasts_S1x1_S1x1 (ix2 0 0) + tileSum a p n (ix2 0 0) = _
  rw [shapeCast_self, tileSum_apply]
  exact congrArg (fun t => prev (ix2 0 0) + t) (Finset.sum_congr rfl fun r _ => hingeCol_apply a p n r 0)

end Cert.KernelIdeal.Tile

end
-- ==== Proof.Accum.lean ====
/-
  The kernel's run read as a value: after the last grid point the accumulator — and with it the result array, whose one
  block is written back after that point only — holds the sum over the 32 tiles of each tile's hinge sum, which is the
  loss of the three argument arrays.

  Point `s` adds `tileTerm s`, the sum of the hinges of rows `256 s … 256 s + 255`, read off the three windows' blocks at
  `s`; block `s` of an argument array is rows `256 s …` of it (`ablk_apply`, `pblk_apply`, `nblk_apply`). The running
  contents after point `n` are the sum of the terms of points `0 … n` (`acc_eq`, by induction on the point: the first
  point starts from the zero it stores, every later point from what the point before left). Extended-real addition is
  commutative and associative, so the order of accumulation does not matter and no finiteness is used.
-/
import proofs.«132260_j16862041604543_1_alg».proof.Proof.Pieces
import proofs.«132260_j16862041604543_1_alg».proof.Proof.TileValue
import proofs.«132260_j16862041604543_1_alg».proof.Proof.Hinge
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Tile Cert.Triplet

variable (m : (ℓ : Loc nD τ sig) → Buf (Elt Ideal) ℓ) (ρ : Dev nD → PrngReg)

/-- The anchor, positive and negatives blocks at a grid point, at their literal types. -/
abbrev ablk (c : Dev nD) (t : Fin cfg0.N) : Vec Ideal S256x512 .f32 := iblk m c 0 t
abbrev pblk (c : Dev nD) (t : Fin cfg0.N) : Vec Ideal S256x512 .f32 := iblk m c 1 t
abbrev nblk (c : Dev nD) (t : Fin cfg0.N) : Vec Ideal S256x16x512 .f32 := iblk m c 2 t

/-- The three argument arrays. -/
abbrev Aarr (c : Dev nD) : Vec Ideal S8192x512 .f32 := m ((c : Thread nD τ).loc main_arg0)
abbrev Parr (c : Dev nD) : Vec Ideal S8192x512 .f32 := m ((c : Thread nD τ).loc main_arg1)
abbrev Narr (c : Dev nD) : Vec Ideal S8192x16x512 .f32 := m ((c : Thread nD τ).loc main_arg2)

/-- Row `r` of the block at point `t` is row `256 t + r` of the array. -/
abbrev rowAt (t : Fin cfg0.N) (r : Fin 256) : Fin 8192 :=
  ⟨256 * t.val + r.val, by have := lt_of_lt_of_eq t.isLt (show cfg0.N = 32 from N_0); have := r.isLt; omega⟩

theorem ablk_apply (c : Dev nD) (t : Fin cfg0.N) (r : Fin 256) (d : Fin 512) :
    ablk m c t (ix2 r d) = Aarr m c (ix2 (rowAt t r) d) := by
  have hi : win0_0.index t 0 = t.val ∧ win0_0.index t 1 = 0 :=
    (by decide +kernel : ∀ t : Fin grid0.N, win0_0.index t 0 = t.val ∧ win0_0.index t 1 = 0) t
  unfold ablk iblk
  rw [View.read_apply]
  show V m c main_arg0 _ = m (c.tc.loc main_arg0) _
  rw [V_main_arg0]
  congr 1
  funext a
  apply Fin.ext
  match a with
  | ⟨0, _⟩ => show win0_0.index t 0 * 256 + 1 * r.val = 256 * t.val + r.val; rw [hi.1]; omega
  | ⟨1, _⟩ => show win0_0.index t 1 * 512 + 1 * d.val = d.val; rw [hi.2]; omega

theorem pblk_apply (c : Dev nD) (t : Fin cfg0.N) (r : Fin 256) (d : Fin 512) :
    pblk m c t (ix2 r d) = Parr m c (ix2 (rowAt t r) d) := by
  have hi : win0_1.index t 0 = t.val ∧ win0_1.index t 1 = 0 :=
    (by decide +kernel : ∀ t : Fin grid0.N, win0_1.index t 0 = t.val ∧ win0_1.index t 1 = 0) t
  unfold pblk iblk
  rw [View.read_apply]
  show V m c main_arg1 _ = m (c.tc.loc main_arg1) _
  rw [V_main_arg1]
  congr 1
  funext a
  apply Fin.ext
  match a with
  | ⟨0, _⟩ => show win0_1.index t 0 * 256 + 1 * r.val = 256 * t.val + r.val; rw [hi.1]; omega
  | ⟨1, _⟩ => show win0_1.index t 1 * 512 + 1 * d.val = d.val; rw [hi.2]; omega

theorem nblk_apply (c : Dev nD) (t : Fin cfg0.N) (r : Fin 256) (k : Fin 16) (d : Fin 512) :
    nblk m c t (ix3 r k d) = Narr m c (ix3 (rowAt t r) k d) := by
  have hi : win0_2.index t 0 = t.val ∧ win0_2.index t 1 = 0 ∧ win0_2.index t 2 = 0 :=
    (by decide +kernel : ∀ t : Fin grid0.N, win0_2.index t 0 = t.val ∧ win0_2.index t 1 = 0 ∧ win0_2.index t 2 = 0) t
  unfold nblk iblk
  rw [View.read_apply]
  show V m c main_arg2 _ = m (c.tc.loc main_arg2) _
  rw [V_main_arg2]
  congr 1
  funext a
  apply Fin.ext
  match a with
  | ⟨0, _⟩ => show win0_2.index t 0 * 256 + 1 * r.val = 256 * t.val + r.val; rw [hi.1]; omega
  | ⟨1, _⟩ => show win0_2.index t 1 * 16 + 1 * k.val = k.val; rw [hi.2.1]; omega
  | ⟨2, _⟩ => show win0_2.index t 2 * 512 + 1 * d.val = d.val; rw [hi.2.2]; omega

/-- The hinge sum of the tile at point `t`, over the three blocks. -/
def blockSum (c : Dev nD) (t : Fin cfg0.N) : EReal :=
  ∑ r : Fin 256, hinge (row2 (ablk m c t) r) (row2 (pblk m c t) r) (row3 (nblk m c t) r)

/-- … is the hinge sum of the arrays' rows `256 t … 256 t + 255`. -/
theorem blockSum_eq (c : Dev nD) (t : Fin cfg0.N) :
    blockSum m c t = ∑ r : Fin 256, hinge (row2 (Aarr m c) (rowAt t r)) (row2 (Parr m c) (rowAt t r)) (row3 (Narr m c) (rowAt t r)) := by
  unfold blockSum
  refine Finset.sum_congr rfl fun r _ => ?_
  have ea : row2 (ablk m c t) r = row2 (Aarr m c) (rowAt t r) := funext fun d => ablk_apply m c t r d
  have ep : row2 (pblk m c t) r = row2 (Parr m c) (rowAt t r) := funext fun d => pblk_apply m c t r d
  have en : row3 (nblk m c t) r = row3 (Narr m c) (rowAt t r) := funext fun k => funext fun d => nblk_apply m c t r k d
  rw [ea, ep, en]

/-- What point `s` adds to the accumulator (zero beyond the grid). -/
def tileTerm (c : Dev nD) (s : ℕ) : EReal := if h : s < cfg0.N then blockSum m c ⟨s, h⟩ else 0

theorem tileTerm_of_lt (c : Dev nD) (s : ℕ) (h : s < cfg0.N) : tileTerm m c s = blockSum m c ⟨s, h⟩ := dif_pos h

/-- The accumulator after point `n` holds the terms of points `0 … n`. -/
theorem acc_eq (c : Dev nD) : ∀ (n : ℕ) (h : n < cfg0.N),
    outsAt0 m c n h (ix2 0 0) = ∑ s ∈ Finset.range (n + 1), tileTerm m c s
  | 0, h => by
    have e := outsAt0_A m c ⟨0, h⟩ rfl
    rw [show outsAt0 m c 0 h = _ from e, out_first, bodyOut_apply, Finset.sum_range_one, tileTerm_of_lt m c 0 h]
    show Ideal.ofBits .f32 0x00000000#32 + blockSum m c ⟨0, h⟩ = _
    rw [Ideal.ofBits_zero_f32, zero_add]
  | n + 1, h => by
    have hN : cfg0.N = 32 := N_0
    have hB : ¬(⟨n + 1, h⟩ : Fin cfg0.N).val % 32 = 0 := by dsimp only; omega
    rw [outsAt0_B m c ⟨n + 1, h⟩ hB, out_later, bodyOut_apply, Finset.sum_range_succ, tileTerm_of_lt m c (n + 1) h]
    show outsAt0 m c n _ (ix2 0 0) + blockSum m c ⟨n + 1, h⟩ = _
    rw [acc_eq c n (Nat.lt_of_succ_lt h)]

end Cert.KernelIdeal.Accum

end
-- ==== Proof.Result.lean ====
/-
  The kernel's result: the accumulator after the last point is written back to the [1, 1] result array, which the
  one host operation after the call reshapes to a scalar; that scalar is the loss of the three argument arrays.
-/
import proofs.«132260_j16862041604543_1_alg».proof.Proof.Accum
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Tile Cert.Triplet

variable (m : (ℓ : Loc nD τ sig) → Buf (Elt Ideal) ℓ) (ρ : Dev nD → PrngReg)

/-- The last grid point. -/
abbrev tLast : Fin cfg0.N := ⟨31, by rw [show cfg0.N = 32 from N_0]; decide⟩

/-- The accumulator after the last point, as contents of the [1, 1] result array (its one block is the array). -/
abbrev lastAcc (c : Dev nD) : Buf (Elt Ideal) ((c : Thread nD τ).loc main_v0) := outsAt0 m c 31 tLast.isLt

/-- Its one element is the loss: the 32 tile terms are the loss taken tile by tile. -/
theorem lastAcc_apply (c : Dev nD) : lastAcc m c (ix2 0 0) = loss (Aarr m c) (Parr m c) (Narr m c) := by
  show outsAt0 m c 31 _ (ix2 0 0) = _
  rw [acc_eq m c 31 _, loss_eq_tiles, ← Fin.sum_univ_eq_sum_range (fun s => tileTerm m c s) 32]
  refine Finset.sum_congr rfl fun t _ => ?_
  have h : t.val < cfg0.N := by rw [show cfg0.N = 32 from N_0]; exact t.isLt
  rw [tileTerm_of_lt m c t.val h, blockSum_eq]

/-- The one write-back, after the last point, writes it. -/
theorem flushed_eq (c : Dev nD) (t : Fin cfg0.N) (hf : (cfg0.win 3).flush t = true) :
    (dats m 0 c).flushed 3 t = ((cfg0.win 3).blk t).view.read (Elt Ideal) (lastAcc m c) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3]
  have hz' : (fun a => win0_3.index tLast a * main_v0.ty.shape.size a) = fun _ => 0 := funext fun a => by fin_cases a <;> decide
  exact (Memref.read_access_unit_zero (Elt Ideal) main_v0 hz' (fun a => by rw [congrFun hz' a]; simp) (lastAcc m c)).symm

/-- So the result array ends holding the accumulator's last contents. -/
theorem final_acc (c : Dev nD) : (dats m 0 c).arrAt 3 cfg0.N = lastAcc m c :=
  (dats m 0 c).arrAt_eq_of_cover 3 (lastAcc m c) (flushed_eq m c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The host's reshape of the result array to a scalar: the loss. -/
theorem tail_eq (c : Dev nD) :
    Pipeline.afterTail₀ cfgs (dats m) 0 (V0 m) [hostOps1] c main_v1 = fun _ => loss (Aarr m c) (Parr m c) (Narr m c) := by
  unfold Pipeline.afterTail₀
  show StableHlo.after hostOps1 _ (Proc.devRef .tc main_v1) = _
  after_results
  funext i
  have hw : Pipeline.withArrays (cfgs 0).spec c (V0 m c) (fun w => (dats m 0 c).arrAt w (cfgs 0).N) (Proc.tc.devRef main_v0)
      = lastAcc m c :=
    (Pipeline.withArrays_arr spec0 launch0.win.arr_inj c _ _ 3).trans (final_acc m c)
  have h0 : (S_.rowMajor i).val = 0 := by
    have := (S_.rowMajor i).isLt
    have e : S_.numel = 1 := by decide
    omega
  refine (shapeCast_apply _ shapeCasts_S1x1_S_ i (ix2 0 0) ?_).trans ?_
  · rw [Shape.rowMajor_val_two, h0]; rfl
  · exact (congrFun hw (ix2 0 0)).trans (lastAcc_apply m c)

/-- The kernel's run, read: the scalar result at the loss of the argument arrays, the arguments unchanged. -/
theorem run : θ_run defs (onTc (τ := τ) (main (F := Ideal))) ⟨m, fun _ => 0, ρ⟩ fun r => ∀ c : Dev nD,
      r.2.mem ((c.tc : Thread nD τ).loc main_v1) = (fun _ => loss (Aarr m c) (Parr m c) (Narr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Accum

end
-- ==== Proof.RefLoss.lean ====
/-
  The reference program's result, read at the extended reals, is the loss of its three arguments.
-/
import proofs.«132260_j16862041604543_1_alg».proof.Proof.Gen.ReferenceIdeal.Read
import proofs.«132260_j16862041604543_1_alg».proof.Proof.Hinge
import Idealize.ShloMosaic.Lib.ValueIdx
import Idealize.ShloMosaic.Lib.ValueIdxRank1

noncomputable section

open scoped BigOperators
open Idealize.ShloMosaic Idealize.ShloMosaic.TcCoe Idealize.SL.Sem Idealize.ShloMosaic.ValueIdx

namespace Cert.ReferenceIdeal.RefLoss

open Cert.ReferenceIdeal Cert.ReferenceIdeal.Read Cert.Triplet

/-! ### The index equations: each stage's operand index at a row, in coordinates -/

theorem idx_v2_row (b : Fin 8192) (d : Fin 512) : idx_main_v2 (ix1 b) d = ix2 b d :=
  funext fun a => Fin.ext (by match a with | ⟨0, _⟩ => rfl | ⟨1, _⟩ => rfl)

theorem idx_v16_row (b : Fin 8192) (k : Fin 16) : idx_main_v16 (ix1 b) k = ix2 b k :=
  funext fun a => Fin.ext (by match a with | ⟨0, _⟩ => rfl | ⟨1, _⟩ => rfl)

theorem idx_v10_row (b : Fin 8192) (k : Fin 16) (d : Fin 512) : idx_main_v10 (ix2 b k) d = ix3 b k d :=
  funext fun a => Fin.ext (by match a with | ⟨0, _⟩ => rfl | ⟨1, _⟩ => rfl | ⟨2, _⟩ => rfl)

theorem idx_v6_v7_row (b : Fin 8192) (k : Fin 16) (d : Fin 512) :
    idx_main_v6 (idx_main_v7 (ix3 b k d)) = ix2 b d :=
  funext fun a => Fin.ext (by match a with | ⟨0, _⟩ => rfl | ⟨1, _⟩ => rfl)

/-! ### The two distances -/

/-- Stage 5 at row `b`: the distance of the anchor's row to the positive's. -/
theorem v5_row (x0 x1 : (⟨S8192x512, .f32⟩ : BufTy).Contents (Elt Ideal)) (b : Fin 8192) :
    val_main_v5 (F := Ideal) x0 x1 (ix1 b) = dist (row2 x0 b) (row2 x1 b) := by
  rw [val_main_v5_apply, val_main_v4_apply, val_main_v2_apply, val_main_v3_apply, val_main_cst_apply,
    val_main_cst_0_apply]
  simp only [val_main_v1_apply, val_main_v0_apply, idx_v2_row, Ideal.hostUnary_sqrt_def, Ideal.addf_def,
    Ideal.subf_def, Ideal.mulf_def, Ideal.ofBits_def, Ideal.ofBits_zero_f32, zero_add]
  rfl

/-- Stage 13 at `(b, k)`: the distance of the anchor's row to the `k`-th negative's. -/
theorem v13_row (x0 : (⟨S8192x512, .f32⟩ : BufTy).Contents (Elt Ideal))
    (x2 : (⟨S8192x16x512, .f32⟩ : BufTy).Contents (Elt Ideal)) (b : Fin 8192) (k : Fin 16) :
    val_main_v13 (F := Ideal) x0 x2 (ix2 b k) = dist (row2 x0 b) (row3 x2 b k) := by
  rw [val_main_v13_apply, val_main_v12_apply, val_main_v10_apply, val_main_v11_apply, val_main_cst_1_apply,
    val_main_cst_2_apply]
  simp only [val_main_v9_apply, val_main_v8_apply, val_main_v7_apply, val_main_v6_apply, idx_v10_row,
    idx_v6_v7_row, Ideal.hostUnary_sqrt_def, Ideal.addf_def, Ideal.subf_def, Ideal.mulf_def, Ideal.ofBits_def,
    Ideal.ofBits_zero_f32, zero_add]
  rfl

/-! ### One row -/

/-- Stage 20 at row `b` is that row's hinge. -/
theorem v20_row (x0 x1 : (⟨S8192x512, .f32⟩ : BufTy).Contents (Elt Ideal))
    (x2 : (⟨S8192x16x512, .f32⟩ : BufTy).Contents (Elt Ideal)) (b : Fin 8192) :
    val_main_v20 (F := Ideal) x0 x1 x2 (ix1 b) = hinge (row2 x0 b) (row2 x1 b) (row3 x2 b) := by
  rw [val_main_v20_apply, val_main_v19_apply, val_main_v17_apply, val_main_v15_apply, val_main_v16_apply,
    val_main_v14_apply, val_main_v18_apply, val_main_call0_v0_apply, val_main_cst_3_apply, val_main_cst_4_apply,
    val_main_cst_5_apply, val_main_call0_cst_apply, v5_row]
  simp only [idx_v16_row, v13_row, Ideal.maximumf_def, Ideal.addf_def, Ideal.subf_def, Ideal.mulf_def,
    Ideal.ofBits_def, Ideal.ofBits_zero_f32, zero_add]
  rfl

/-! ### All rows -/

/-- The reference's last stage, at its one index, is the loss. -/
theorem ref_eq_loss (x0 x1 : (⟨S8192x512, .f32⟩ : BufTy).Contents (Elt Ideal))
    (x2 : (⟨S8192x16x512, .f32⟩ : BufTy).Contents (Elt Ideal)) :
    val_main_v21 (F := Ideal) x0 x1 x2 = fun _ => loss x0 x1 x2 := by
  funext i
  rw [val_main_v21_apply, val_main_cst_6_apply, Ideal.ofBits_def, Ideal.ofBits_zero_f32, zero_add]
  rw [← Equiv.sum_comp (idxEquiv1 (n := 8192)).symm]
  exact Finset.sum_congr rfl fun b _ => v20_row x0 x1 x2 b

end Cert.ReferenceIdeal.RefLoss

end
-- ==== Proof.lean ====
/-
  The certificate of the triplet hinge loss kernel against its jnp reference, over the extended reals.

  Both programs compute, from an anchor array and a positive array (8192 rows of 512) and a negatives array (8192
  rows of 16 slots of 512), the sum over the rows of `max (16 · dist a p - ∑_k dist a n_k + 1) 0` with
  `dist u v = √(∑_d (u_d - v_d)² + ε)` (Proof/Hinge.lean: `loss`). The reference takes the sums whole. The kernel walks
  32 tiles of 256 rows: at each grid point it forms the tile's hinge column, sums it, and adds the sum to a [1, 1]
  accumulator that the first point zeroes and the last point's write-back copies to the result array, which the host
  reshapes to a scalar. At the extended reals every float operation is exact and addition is commutative and
  associative, so the order in which the sixteen negative distances are added, and the order in which the tiles are
  accumulated, do not change the value: both results are `loss` of the arguments (Proof/Result.lean for the kernel,
  Proof/RefLoss.lean for the reference). The square root is one function on both sides, the constants ε, 16, 1 the
  same words on both sides; the precondition (finite inputs) is not used by the value argument.

  The three frames: the kernel's two are the generated frame runs; the reference's is its generated run with the
  result dropped. The idealization rewrote nothing, so `preserves` is trivial.
-/
import proofs.«132260_j16862041604543_1_alg».proof.Defs
import proofs.«132260_j16862041604543_1_alg».proof.Proof.Gen.Kernel
import proofs.«132260_j16862041604543_1_alg».proof.Proof.Gen.Kernel.Skeleton
import proofs.«132260_j16862041604543_1_alg».proof.Proof.Gen.Kernel.Launch
import proofs.«132260_j16862041604543_1_alg».proof.Proof.Gen.Kernel.Points
import proofs.«132260_j16862041604543_1_alg».proof.Proof.Gen.Kernel.Frame
import proofs.«132260_j16862041604543_1_alg».proof.Proof.Gen.KernelIdeal
import proofs.«132260_j16862041604543_1_alg».proof.Proof.Gen.KernelIdeal.Skeleton
import proofs.«132260_j16862041604543_1_alg».proof.Proof.Gen.KernelIdeal.Launch
import proofs.«132260_j16862041604543_1_alg».proof.Proof.Gen.KernelIdeal.Points
import proofs.«132260_j16862041604543_1_alg».proof.Proof.Gen.KernelIdeal.Frame
import proofs.«132260_j16862041604543_1_alg».proof.Proof.Gen.ReferenceIdeal
import proofs.«132260_j16862041604543_1_alg».proof.Proof.Gen.ReferenceIdeal.Run
import proofs.«132260_j16862041604543_1_alg».proof.Proof.Gen.ReferenceIdeal.Read
import proofs.«132260_j16862041604543_1_alg».proof.Proof.Gen.Pre_finite_inputs
import proofs.«132260_j16862041604543_1_alg».proof.Proof.Result
import proofs.«132260_j16862041604543_1_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the loss of arguments that agree. -/
theorem algebraic : Cert.algebraic_KernelIdeal_ReferenceIdeal := by
  intro m ρ m' ρ' _ hagree
  refine ⟨fun c => fun _ => Cert.Triplet.loss (Cert.KernelIdeal.Accum.Aarr m c) (Cert.KernelIdeal.Accum.Parr m c)
    (Cert.KernelIdeal.Accum.Narr m c), Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefLoss.ref_eq_loss,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
